-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S1024x1024 : Shape := ⟨2, ![1024, 1024]⟩
abbrev S16x1024 : Shape := ⟨2, ![16, 1024]⟩
abbrev S1024x16 : Shape := ⟨2, ![1024, 16]⟩
abbrev S1x1024 : Shape := ⟨2, ![1, 1024]⟩
abbrev S_ : Shape := ⟨0, ![]⟩
abbrev S1024 : Shape := ⟨1, ![1024]⟩

class Facts : Prop where
  bcast_S_S1024x1024 : S_.BroadcastsInDim S1024x1024 (![] : Fin 0 → Fin S1024x1024.rank)
  reducesTo_S1024x1024_S1024_d1 : S1024x1024.ReducesTo [1] S1024
  h_S_ : 0 < S_.numel
  bcast_S_S4x8192x1024 : S_.BroadcastsInDim S4x8192x1024 (![] : Fin 0 → Fin S4x8192x1024.rank)
  reducesTo_S4x8192x1024_S_d0_1_2 : S4x8192x1024.ReducesTo [0, 1, 2] S_
  reducesTo_S1024x1024_S_d0_1 : S1024x1024.ReducesTo [0, 1] S_
  bcast_S_S16x1024 : S_.BroadcastsInDim S16x1024 (![] : Fin 0 → Fin S16x1024.rank)
  reducesTo_S16x1024_S_d0_1 : S16x1024.ReducesTo [0, 1] S_
  bcast_S_S1024x16 : S_.BroadcastsInDim S1024x16 (![] : Fin 0 → Fin S1024x16.rank)
  reducesTo_S1024x16_S_d0_1 : S1024x16.ReducesTo [0, 1] S_
  bcast_S_S1x1024 : S_.BroadcastsInDim S1x1024 (![] : Fin 0 → Fin S1x1024.rank)
  reducesTo_S1x1024_S_d0_1 : S1x1024.ReducesTo [0, 1] S_
  bcast_S_S1024 : S_.BroadcastsInDim S1024 (![] : Fin 0 → Fin S1024.rank)
  reducesTo_S1024_S_d0 : S1024.ReducesTo [0] S_
  dot_S1024x16_S16x1024_S1024x1024_1_0_0_1_n_n_wf : DotDims.WF S1024x16 S16x1024 S1024x1024 [1] [0] [0] [1] [] []

variable [Facts]

def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf
def fn_part2 {F : FTy → Type} [FloatOps F] (main_v30 : IVec S_ 1) (main_v33 : IVec S_ 1) : IVec S_ 1 :=
  let main_v34 : IVec S_ 1 := andi main_v30 main_v33
  main_v34

def fn_part1 {F : FTy → Type} [FloatOps F] (main_arg3 : FVec F S1024x16 .f32) (main_arg4 : FVec F S1x1024 .f32) (main_v6 : FVec F S1024 .f32) (main_v15 : IVec S_ 1) (main_v16 : FVec F S16x1024 .f32) (main_cst_4 : FVec F S_ .f32) : IVec S_ 1 :=
  let main_v17 : FVec F S16x1024 .f32 := broadcastInDim S16x1024 ![] bcast_S_S16x1024 main_cst_4
  let main_v18 : IVec S16x1024 1 := cmpf .olt main_v16 main_v17
  let main_c_5 : IVec S_ 1 := constantI S_ 1 1#1
  let main_v19 : IVec S_ 1 := (fun x v => Host.reduce IntOp.andi x v reducesTo_S16x1024_S_d0_1 h_S_) main_v18 main_c_5
  let main_v20 : IVec S_ 1 := andi main_v15 main_v19
  let main_v21 : FVec F S1024x16 .f32 := Host.absf main_arg3
  let main_cst_6 : FVec F S_ .f32 := constant S_ .f32 0x7F800000#32
  let main_v22 : FVec F S1024x16 .f32 := broadcastInDim S1024x16 ![] bcast_S_S1024x16 main_cst_6
  let main_v23 : IVec S1024x16 1 := cmpf .olt main_v21 main_v22
  let main_c_7 : IVec S_ 1 := constantI S_ 1 1#1
  let main_v24 : IVec S_ 1 := (fun x v => Host.reduce IntOp.andi x v reducesTo_S1024x16_S_d0_1 h_S_) main_v23 main_c_7
  let main_v25 : IVec S_ 1 := andi main_v20 main_v24
  let main_v26 : FVec F S1x1024 .f32 := Host.absf main_arg4
  let main_cst_8 : FVec F S_ .f32 := constant S_ .f32 0x7F800000#32
  let main_v27 : FVec F S1x1024 .f32 := broadcastInDim S1x1024 ![] bcast_S_S1x1024 main_cst_8
  let main_v28 : IVec S1x1024 1 := cmpf .olt main_v26 main_v27
  let main_c_9 : IVec S_ 1 := constantI S_ 1 1#1
  let main_v29 : IVec S_ 1 := (fun x v => Host.reduce IntOp.andi x v reducesTo_S1x1024_S_d0_1 h_S_) main_v28 main_c_9
  let main_v30 : IVec S_ 1 := andi main_v25 main_v29
  let main_cst_10 : FVec F S_ .f32 := constant S_ .f32 0x00000000#32
  let main_v31 : FVec F S1024 .f32 := broadcastInDim S1024 ![] bcast_S_S1024 main_cst_10
  let main_v32 : IVec S1024 1 := cmpf .une main_v6 main_v31
  let main_c_11 : IVec S_ 1 := constantI S_ 1 1#1
  let main_v33 : IVec S_ 1 := (fun x v => Host.reduce IntOp.andi x v reducesTo_S1024_S_d0 h_S_) main_v32 main_c_11
  fn_part2 (F := F) main_v30 main_v33

def fn {F : FTy → Type} [FloatOps F] (main_arg0 : FVec F S4x8192x1024 .f32) (main_arg1 : FVec F S1024x1024 .f32) (main_arg2 : FVec F S16x1024 .f32) (main_arg3 : FVec F S1024x16 .f32) (main_arg4 : FVec F S1x1024 .f32) : IVec S_ 1 :=
  let main_v0 : FVec F S1024x1024 .f32 := (fun l r => Host.dotGeneral dot_S1024x16_S16x1024_S1024x1024_1_0_0_1_n_n none l r) main_arg3 main_arg2
  let main_cst : FVec F S_ .f32 := constant S_ .f32 0x40000000#32
  let main_v1 : FVec F S1024x1024 .f32 := broadcastInDim S1024x1024 ![] bcast_S_S1024x1024 main_cst
  let main_v2 : FVec F S1024x1024 .f32 := mulf main_v1 main_v0
  let main_v3 : FVec F S1024x1024 .f32 := addf main_arg1 main_v2
  let main_v4 : FVec F S1024x1024 .f32 := mulf main_v3 main_v3
  let main_cst_0 : FVec F S_ .f32 := constant S_ .f32 0x00000000#32
  let main_v5 : FVec F S1024 .f32 := (fun x v => Host.reduceAdd x v reducesTo_S1024x1024_S1024_d1 h_S_) main_v4 main_cst_0
  let main_v6 : FVec F S1024 .f32 := Host.sqrt main_v5
  let main_v7 : FVec F S4x8192x1024 .f32 := Host.absf main_arg0
  let main_cst_1 : FVec F S_ .f32 := constant S_ .f32 0x7F800000#32
  let main_v8 : FVec F S4x8192x1024 .f32 := broadcastInDim S4x8192x1024 ![] bcast_S_S4x8192x1024 main_cst_1
  let main_v9 : IVec S4x8192x1024 1 := cmpf .olt main_v7 main_v8
  let main_c : IVec S_ 1 := constantI S_ 1 1#1
  let main_v10 : IVec S_ 1 := (fun x v => Host.reduce IntOp.andi x v reducesTo_S4x8192x1024_S_d0_1_2 h_S_) main_v9 main_c
  let main_v11 : FVec F S1024x1024 .f32 := Host.absf main_arg1
  let main_cst_2 : FVec F S_ .f32 := constant S_ .f32 0x7F800000#32
  let main_v12 : FVec F S1024x1024 .f32 := broadcastInDim S1024x1024 ![] bcast_S_S1024x1024 main_cst_2
  let main_v13 : IVec S1024x1024 1 := cmpf .olt main_v11 main_v12
  let main_c_3 : IVec S_ 1 := constantI S_ 1 1#1
  let main_v14 : IVec S_ 1 := (fun x v => Host.reduce IntOp.andi x v reducesTo_S1024x1024_S_d0_1 h_S_) main_v13 main_c_3
  let main_v15 : IVec S_ 1 := andi main_v10 main_v14
  let main_v16 : FVec F S16x1024 .f32 := Host.absf main_arg2
  let main_cst_4 : FVec F S_ .f32 := constant S_ .f32 0x7F800000#32
  fn_part1 (F := F) main_arg3 main_arg4 main_v6 main_v15 main_v16 main_cst_4
-- ==== Kernel.lean ====
abbrev S4x8192x1024 : Shape := ⟨3, ![4, 8192, 1024]⟩
abbrev S1024x1024 : Shape := ⟨2, ![1024, 1024]⟩
abbrev S16x1024 : Shape := ⟨2, ![16, 1024]⟩
abbrev S1024x16 : Shape := ⟨2, ![1024, 16]⟩
abbrev S1x1024 : Shape := ⟨2, ![1, 1024]⟩
abbrev S_ : Shape := ⟨0, ![]⟩
abbrev S1024 : Shape := ⟨1, ![1024]⟩
abbrev S32768x1024 : Shape := ⟨2, ![32768, 1024]⟩

abbrev nBuf : Space → Nat
  | .hbm => 34
  | .vmem => 7
  | .smem => 0
  | _ => 0

abbrev bufTy : (tb : Table) → Fin (tcTables nBuf tb) → BufTy
  | .hbm, ⟨0, _⟩ => ⟨S4x8192x1024, .f32⟩
  | .hbm, ⟨1, _⟩ => ⟨S1024x1024, .f32⟩
  | .hbm, ⟨2, _⟩ => ⟨S16x1024, .f32⟩
  | .hbm, ⟨3, _⟩ => ⟨S1024x16, .f32⟩
  | .hbm, ⟨4, _⟩ => ⟨S1x1024, .f32⟩
  | .hbm, ⟨5, _⟩ => ⟨S1024x1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024x1024, .f32⟩
  | .hbm, ⟨17, _⟩ => ⟨S1x1024, .f32⟩
  | .hbm, ⟨18, _⟩ => ⟨S1024x1024, .f32⟩
  | .hbm, ⟨19, _⟩ => ⟨S1024x1024, .f32⟩
  | .hbm, ⟨20, _⟩ => ⟨S1024x1024, .bf16⟩
  | .hbm, ⟨21, _⟩ => ⟨S16x1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1x1024, .f32⟩
  | .hbm, ⟨26, _⟩ => ⟨S16x1024, .f32⟩
  | .hbm, ⟨27, _⟩ => ⟨S16x1024, .f32⟩
  | .hbm, ⟨28, _⟩ => ⟨S16x1024, .bf16⟩
  | .hbm, ⟨29, _⟩ => ⟨S1024x16, .f32⟩
  | .hbm, ⟨30, _⟩ => ⟨S1024x16, .bf16⟩
  | .hbm, ⟨31, _⟩ => ⟨S32768x1024, .f32⟩
  | .hbm, ⟨32, _⟩ => ⟨S32768x1024, .f32⟩
  | .hbm, ⟨33, _⟩ => ⟨S4x8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x16, .bf16⟩
  | .local _ .vmem, ⟨4, _⟩ => ⟨S16x1024, .bf16⟩
  | .local _ .vmem, ⟨5, _⟩ => ⟨S1024x1024, .f32⟩
  | .local _ .vmem, ⟨6, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1024x1024 : S_.BroadcastsInDim S1024x1024 (![] : Fin 0 → Fin S1024x1024.rank)
  reducesTo_S1024x1024_S1024_d1 : S1024x1024.ReducesTo [1] S1024
  h_S_ : 0 < S_.numel
  shapeCasts_S1x1024_S1024 : S1x1024.ShapeCasts S1024
  transposes_S1024x1024_S1024x1024_1_0 : S1024x1024.Transposes [1, 0] S1024x1024
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  bitsLt_bf16_f32 : FTy.bits .bf16 < FTy.bits .f32
  transposes_S1024x16_S16x1024_1_0 : S1024x16.Transposes [1, 0] S16x1024
  bcast_S_S1024 : S_.BroadcastsInDim S1024 (![] : Fin 0 → Fin S1024.rank)
  bcast_S1x1024_S16x1024_0_1 : S1x1024.BroadcastsInDim S16x1024 (![0, 1] : Fin 2 → Fin S16x1024.rank)
  transposes_S16x1024_S1024x16_1_0 : S16x1024.Transposes [1, 0] S1024x16
  shapeCasts_S4x8192x1024_S32768x1024 : S4x8192x1024.ShapeCasts S32768x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  shapeCasts_S32768x1024_S4x8192x1024 : S32768x1024.ShapeCasts S4x8192x1024
  dot_S1024x16_S16x1024_S1024x1024_1_0_0_1_n_n_wf : DotDims.WF S1024x16 S16x1024 S1024x1024 [1] [0] [0] [1] [] []
  dot_S1024x1024_S1024x1024_S1024x1024_1_0_0_1_n_n_wf : DotDims.WF S1024x1024 S1024x1024 S1024x1024 [1] [0] [0] [1] [] []
  dot_S1024x1024_S1024x16_S1024x16_1_0_0_1_n_n_wf : DotDims.WF S1024x1024 S1024x16 S1024x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S1024x16.size a
  hwx0_2 : ∀ i : grid0.Coords, EltTy.bits .bf16 = 32 ∨ (Rect.block (s := S1024x16) S1024x16.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x1024.size a
  hwx0_3 : ∀ i : grid0.Coords, EltTy.bits .bf16 = 32 ∨ (Rect.block (s := S16x1024) S16x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S32768x1024.size a
  hwx0_4 : ∀ i : grid0.Coords, EltTy.bits .f32 = 32 ∨ (Rect.block (s := S32768x1024) S1024x1024.size (cc0_transform_4 i) (hinb0_4 i)).WholeWords (EltTy.packing .f32)

variable [Facts₀]

def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf

abbrev win0_0 : Pipeline.Window sig grid0 :=
  Pipeline.Window.ofSpec (Memref.whole main_v21) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1024x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S16x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x8192x1024 : Shape := ⟨3, ![4, 8192, 1024]⟩
abbrev S1024x1024 : Shape := ⟨2, ![1024, 1024]⟩
abbrev S16x1024 : Shape := ⟨2, ![16, 1024]⟩
abbrev S1024x16 : Shape := ⟨2, ![1024, 16]⟩
abbrev S1x1024 : Shape := ⟨2, ![1, 1024]⟩
abbrev S4x8192x16 : Shape := ⟨3, ![4, 8192, 16]⟩
abbrev S_ : Shape := ⟨0, ![]⟩
abbrev S1024 : Shape := ⟨1, ![1024]⟩
abbrev S1x1x1024 : Shape := ⟨3, ![1, 1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024x1024, .f32⟩
  | .hbm, ⟨2, _⟩ => ⟨S16x1024, .f32⟩
  | .hbm, ⟨3, _⟩ => ⟨S1024x16, .f32⟩
  | .hbm, ⟨4, _⟩ => ⟨S1x1024, .f32⟩
  | .hbm, ⟨5, _⟩ => ⟨S4x8192x1024, .f32⟩
  | .hbm, ⟨6, _⟩ => ⟨S4x8192x16, .f32⟩
  | .hbm, ⟨7, _⟩ => ⟨S4x8192x1024, .f32⟩
  | .hbm, ⟨8, _⟩ => ⟨S_, .f32⟩
  | .hbm, ⟨9, _⟩ => ⟨S4x8192x1024, .f32⟩
  | .hbm, ⟨10, _⟩ => ⟨S4x8192x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S_, .f32⟩
  | .hbm, ⟨18, _⟩ => ⟨S1024, .f32⟩
  | .hbm, ⟨19, _⟩ => ⟨S1024, .f32⟩
  | .hbm, ⟨20, _⟩ => ⟨S1x1024, .f32⟩
  | .hbm, ⟨21, _⟩ => ⟨S1x1024, .f32⟩
  | .hbm, ⟨22, _⟩ => ⟨S1x1x1024, .f32⟩
  | .hbm, ⟨23, _⟩ => ⟨S_, .f32⟩
  | .hbm, ⟨24, _⟩ => ⟨S1x1x1024, .f32⟩
  | .hbm, ⟨25, _⟩ => ⟨S1x1x1024, .f32⟩
  | .hbm, ⟨26, _⟩ => ⟨S4x8192x1024, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_cst : Ref sig .tc := ⟨.hbm, 17, rfl⟩
abbrev main_call0_v1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  bcast_S_S4x8192x1024 : S_.BroadcastsInDim S4x8192x1024 (![] : Fin 0 → Fin S4x8192x1024.rank)
  bcast_S_S1024x1024 : S_.BroadcastsInDim S1024x1024 (![] : Fin 0 → Fin S1024x1024.rank)
  reducesTo_S1024x1024_S1024_d1 : S1024x1024.ReducesTo [1] S1024
  h_S_ : 0 < S_.numel
  bcast_S1024_S1x1024_1 : S1024.BroadcastsInDim S1x1024 (![1] : Fin 1 → Fin S1x1024.rank)
  shapeCasts_S1x1024_S1x1x1024 : S1x1024.ShapeCasts S1x1x1024
  bcast_S_S1x1x1024 : S_.BroadcastsInDim S1x1x1024 (![] : Fin 0 → Fin S1x1x1024.rank)
  bcast_S1x1x1024_S4x8192x1024_0_1_2 : S1x1x1024.BroadcastsInDim S4x8192x1024 (![0, 1, 2] : Fin 3 → Fin S4x8192x1024.rank)
  dot_S4x8192x1024_S1024x1024_S4x8192x1024_2_1_01_0_n_n_wf : DotDims.WF S4x8192x1024 S1024x1024 S4x8192x1024 [2] [1] [0, 1] [0] [] []
  dot_S4x8192x1024_S16x1024_S4x8192x16_2_1_01_0_n_n_wf : DotDims.WF S4x8192x1024 S16x1024 S4x8192x16 [2] [1] [0, 1] [0] [] []
  dot_S4x8192x16_S1024x16_S4x8192x1024_2_1_01_0_n_n_wf : DotDims.WF S4x8192x16 S1024x16 S4x8192x1024 [2] [1] [0, 1] [0] [] []
  dot_S1024x16_S16x1024_S1024x1024_1_0_0_1_n_n_wf : DotDims.WF S1024x16 S16x1024 S1024x1024 [1] [0] [0] [1] [] []

variable [Facts₀]

def dot_S4x8192x1024_S1024x1024_S4x8192x1024_2_1_01_0_n_n : DotDims S4x8192x1024 S1024x1024 S4x8192x1024 where
  lhsContracting := [2]
  rhsContracting := [1]
  lhsNonContracting := [0, 1]
  rhsNonContracting := [0]
  lhsBatch := []
  rhsBatch := []
  wf := dot_S4x8192x1024_S1024x1024_S4x8192x1024_2_1_01_0_n_n_wf
def dot_S4x8192x1024_S16x1024_S4x8192x16_2_1_01_0_n_n : DotDims S4x8192x1024 S16x1024 S4x8192x16 where
  lhsContracting := [2]
  rhsContracting := [1]
  lhsNonContracting := [0, 1]
  rhsNonContracting := [0]
  lhsBatch := []
  rhsBatch := []
  wf := dot_S4x8192x1024_S16x1024_S4x8192x16_2_1_01_0_n_n_wf
def dot_S4x8192x16_S1024x16_S4x8192x1024_2_1_01_0_n_n : DotDims S4x8192x16 S1024x16 S4x8192x1024 where
  lhsContracting := [2]
  rhsContracting := [1]
  lhsNonContracting := [0, 1]
  rhsNonContracting := [0]
  lhsBatch := []
  rhsBatch := []
  wf := dot_S4x8192x16_S1024x16_S4x8192x1024_2_1_01_0_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf

class Facts : Prop extends Facts₀ where

variable [Facts]
-- ==== Proof.LibMatmulPlain.lean ====
/-
  A matrix product with no batch axis, rows × contraction by contraction × columns, read at one entry on the extended
  reals: into a zero accumulator it is the plain sum over the contraction coordinate of the products of the two
  operands' entries.  Stated once for any extents and any dimension-number record of that pattern, for the vector
  unit's product and for the host's.
-/
import Idealize.ShloMosaic.Lib.ValueIdx
import Idealize.ShloMosaic.PureOps.Ideal.Laws

noncomputable section

namespace Cert.Gcn

open Idealize.ShloMosaic Idealize.ShloMosaic.ValueIdx

variable {M K N : ℕ}

/-- The dimension numbers contract the left operand's columns with the right operand's rows and keep the left rows
    and the right columns, with no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

/-- The sum over the one-axis contraction index is the sum over its coordinate, the left operand read at
    (row, l) and the right at (l, column). -/
theorem plain_sum {φ₁ φ₂ : FTy} (D : DotDims ⟨2, ![M, K]⟩ ⟨2, ![K, N]⟩ ⟨2, ![M, N]⟩) (hD : IsPlain D)
    (A : FVec Ideal ⟨2, ![M, K]⟩ φ₁) (B : FVec Ideal ⟨2, ![K, N]⟩ φ₂) (p : Fin M) (q : Fin N) :
    ∑ k : D.contr.Idx, A (D.lhsIdx (ix2 p q) k) * B (D.rhsIdx (ix2 p q) k) = ∑ l : Fin K, A (ix2 p l) * B (ix2 l q) := by
  obtain ⟨lc, rc, ln, rn, lb, rb, wf⟩ := D
  obtain ⟨h1, h2, h3, h4, h5, h6⟩ := hD
  simp only at h1 h2 h3 h4 h5 h6
  subst h1 h2 h3 h4 h5 h6
  set D : DotDims ⟨2, ![M, K]⟩ ⟨2, ![K, N]⟩ ⟨2, ![M, N]⟩ := ⟨[1], [0], [0], [1], [], [], wf⟩ with hDdef
  rw [← Equiv.sum_comp (contrEquiv1 D K rfl rfl).symm]
  refine Finset.sum_congr rfl fun l _ => ?_
  have hk := contrEquiv1_symm_val D K rfl rfl l
  have l0 : ∀ (i : (⟨2, ![M, N]⟩ : Shape).Idx) (k : D.contr.Idx), (D.lhsIdx i k 0).val = (i 0).val := by
    intro i k
    unfold DotDims.lhsIdx
    rw [dif_neg (show ¬(0 : Fin 2) ∈ ([] : List (Fin 2)) by decide), dif_pos (show (0 : Fin 2) ∈ ([0] : List (Fin 2)) by decide)]
    rfl
  have l1 : ∀ (i : (⟨2, ![M, N]⟩ : Shape).Idx) (k : D.contr.Idx), (D.lhsIdx i k 1).val = (k ⟨0, Nat.one_pos⟩).val :=
    fun i k => D.lhsIdx_val_of_single rfl i k
  have r0 : ∀ (i : (⟨2, ![M, N]⟩ : Shape).Idx) (k : D.contr.Idx), (D.rhsIdx i k 0).val = (k ⟨0, Nat.one_pos⟩).val :=
    fun i k => D.rhsIdx_val_of_single rfl i k
  have r1 : ∀ (i : (⟨2, ![M, N]⟩ : Shape).Idx) (k : D.contr.Idx), (D.rhsIdx i k 1).val = (i 1).val := by
    intro i k
    unfold DotDims.rhsIdx
    rw [dif_neg (show ¬(1 : Fin 2) ∈ ([] : List (Fin 2)) by decide), dif_pos (show (1 : Fin 2) ∈ ([1] : List (Fin 2)) by decide)]
    rfl
  have el : D.lhsIdx (ix2 p q) ((contrEquiv1 D K rfl rfl).symm l) = ix2 p l := funext fun a => Fin.ext (by
    match a with
    | ⟨0, _⟩ => exact l0 _ _
    | ⟨1, _⟩ => exact (l1 _ _).trans hk)
  have er : D.rhsIdx (ix2 p q) ((contrEquiv1 D K rfl rfl).symm l) = ix2 l q := funext fun a => Fin.ext (by
    match a with
    | ⟨0, _⟩ => exact (r0 _ _).trans hk
    | ⟨1, _⟩ => exact r1 _ _)
  rw [el, er]

/-- The vector unit's product into the zero accumulator, at entry (p, q). -/
theorem matmul_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    matmul D prec A B (constant (F := Ideal) ⟨2, ![M, N]⟩ .f32 0x00000000#32) (ix2 p q) = ∑ l : Fin K, A (ix2 p l) * B (ix2 l q) := by
  simp only [matmul]
  rw [Ideal.matmul_constant_zero_apply]
  exact plain_sum D hD A B p q

/-- The host's product, at entry (p, q). -/
theorem dotGeneral_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    Host.dotGeneral D prec A B (ix2 p q) = ∑ l : Fin K, A (ix2 p l) * B (ix2 l q) := by
  simp only [Host.dotGeneral]
  rw [Ideal.dotGeneral_apply]
  exact plain_sum D hD A B p q

end Cert.Gcn

end
-- ==== Proof.KerBody.lean ====
/-
  One run of the kernel body, entry by entry on the extended reals.

  The body multiplies its block of activations (1024 rows × 1024) by the scaled transposed weight, multiplies the same
  block by the transposed down projection (1024 × 16) and that product by the scaled up projection (16 × 1024), and adds
  the two results.  A change of float format is the identity here and each product lands on a zero accumulator, so the
  entry (p, q) of what is stored is
      ∑_d x₀(p,d)·x₁(d,q)  +  ∑_r (∑_d x₀(p,d)·x₂(d,r))·x₃(r,q).
-/
import proofs.«168903_j20409684591173_1_alg».proof.Proof.Gen.KernelIdeal.Skeleton
import proofs.«168903_j20409684591173_1_alg».proof.Proof.LibMatmulPlain
import Idealize.ShloMosaic.Lib.ValueIdx
import Idealize.ShloMosaic.Lib.Pipeline.Value

noncomputable section

namespace Cert.Dora

open Idealize.ShloMosaic Idealize.ShloMosaic.ValueIdx Cert.KernelIdeal Cert.KernelIdeal.Gen

/-- Each of the body's three products has the plain pattern: left columns against right rows, no batch axis. -/
theorem plain_base : Cert.Gcn.IsPlain dot_S1024x1024_S1024x1024_S1024x1024_1_0_0_1_n_n := ⟨rfl, rfl, rfl, rfl, rfl, rfl⟩
theorem plain_down : Cert.Gcn.IsPlain dot_S1024x1024_S1024x16_S1024x16_1_0_0_1_n_n := ⟨rfl, rfl, rfl, rfl, rfl, rfl⟩
theorem plain_up : Cert.Gcn.IsPlain dot_S1024x16_S16x1024_S1024x1024_1_0_0_1_n_n := ⟨rfl, rfl, rfl, rfl, rfl, rfl⟩

/-- The stored value at entry (p, q): the activations' row p against column q of the first weight, plus the row's
    sixteen projections against column q of the last weight. -/
theorem pay_apply (x0 : Vec Ideal S1024x1024 .f32) (x1 : Vec Ideal S1024x1024 .bf16) (x2 : Vec Ideal S1024x16 .bf16)
    (x3 : Vec Ideal S16x1024 .bf16) (p q : Fin 1024) :
    k0_pay1 x0 x1 x2 x3 (ix2 p q)
      = (∑ d : Fin 1024, x0 (ix2 p d) * x1 (ix2 d q))
        + ∑ r : Fin 16, (∑ d : Fin 1024, x0 (ix2 p d) * x2 (ix2 d r)) * x3 (ix2 r q) := by
  unfold k0_pay1
  rw [addf_apply, Cert.Gcn.matmul_plain_apply _ plain_base, Cert.Gcn.matmul_plain_apply _ plain_up]
  simp only [truncf_apply, shapeCast_self, Cert.Gcn.matmul_plain_apply _ plain_down]

end Cert.Dora

end
-- ==== Proof.KerValue.lean ====
/-
  From the kernel's blocks to its whole output array, on the extended reals.

  The grid has 32 points.  Point t stages rows 1024·t … 1024·t + 1023 of the activations (all 1024 columns) and, whole,
  the three weight arrays; it writes back rows 1024·t … 1024·t + 1023 of the output.  The body's stored entry (p, q) is a
  function of row p of the staged activations and of column q of the weights only, so every point writes the block of ONE
  function `rowsOut` of the four arrays: entry (i, o) is  ∑_d X(i,d)·W₂(d,o) + ∑_r (∑_d X(i,d)·Aᵀ(d,r))·B₂(r,o).
  The 32 blocks tile the 32768 rows (row i lies in block i / 1024), so the array ends holding `rowsOut` everywhere.
-/
import proofs.«168903_j20409684591173_1_alg».proof.Proof.Gen.KernelIdeal.Frame
import proofs.«168903_j20409684591173_1_alg».proof.Proof.KerBody
import Idealize.ShloMosaic.Lib.Pipeline.Value

set_option maxRecDepth 16384

noncomputable section

namespace Cert.Dora

open Cert.KernelIdeal Cert.KernelIdeal.Gen Idealize.ShloMosaic Idealize.ShloMosaic.TcCoe Idealize.SL.Sem
open Idealize.ShloMosaic.ValueIdx
open Idealize.ShloMosaic.Pipeline (Dat)

/-- Entry (i, o) of the layer's output from the row-major activations X (32768 × 1024) and the three prepared weights:
    row i of X against column o of W₂, plus row i's sixteen projections on Aᵀ against column o of B₂. -/
def rowsOut (X : FVec Ideal S32768x1024 .f32) (W2 : FVec Ideal S1024x1024 .bf16) (AT : FVec Ideal S1024x16 .bf16)
    (B2 : FVec Ideal S16x1024 .bf16) (i : Fin 32768) (o : Fin 1024) : EReal :=
  (∑ d : Fin 1024, X (ix2 i d) * W2 (ix2 d o))
    + ∑ r : Fin 16, (∑ d : Fin 1024, X (ix2 i d) * AT (ix2 d r)) * B2 (ix2 r o)

/-- One point's stored block is a block of `rowsOut`: if the staged activations are rows 1024·t + p of X and the staged
    weights are the whole weight arrays, the stored entry y is `rowsOut` at the array index i with the same column and
    row 1024·t + (row of y). -/
theorem block_value (x0 : Vec Ideal S1024x1024 .f32) (x1 : Vec Ideal S1024x1024 .bf16) (x2 : Vec Ideal S1024x16 .bf16)
    (x3 : Vec Ideal S16x1024 .bf16) (X : FVec Ideal S32768x1024 .f32) (W2 : FVec Ideal S1024x1024 .bf16)
    (AT : FVec Ideal S1024x16 .bf16) (B2 : FVec Ideal S16x1024 .bf16) (t : ℕ)
    (h0 : ∀ (p d : Fin 1024) (i : Fin 32768), i.val = t * 1024 + p.val → x0 (ix2 p d) = X (ix2 i d))
    (h1 : x1 = W2) (h2 : x2 = AT) (h3 : x3 = B2)
    (y : S1024x1024.Idx) (i : Fin 32768) (o : Fin 1024) (hi : i.val = t * 1024 + (y 0).val) (ho : o.val = (y 1).val) :
    k0_pay1 x0 x1 x2 x3 y = rowsOut X W2 AT B2 i o := by
  subst h1 h2 h3
  obtain ⟨p, q, rfl⟩ : ∃ (p q : Fin 1024), y = ix2 p q := ⟨y 0, y 1, eq_ix2 y⟩
  have hq : q = o := Fin.ext ho.symm
  subst hq
  have hrow : ∀ d : Fin 1024, x0 (ix2 p d) = X (ix2 i d) := fun d => h0 p d i hi
  rw [pay_apply]
  unfold rowsOut
  simp only [hrow]

variable (m : (ℓ : Loc nD τ sig) → Buf (Elt Ideal) ℓ) (ρ : Dev nD → PrngReg)

theorem origin2 : (![0, 0] : Fin 2 → Nat) = fun _ => 0 := funext fun a => by fin_cases a <;> rfl

/-- The output array as the region leaves it: `rowsOut` of the four arrays the region finds. -/
def outArr (c : Dev nD) : S32768x1024.Idx → EReal := fun i =>
  rowsOut (V m c main_v21) (V m c main_v11) (V m c main_v20) (V m c main_v18) (i 0) (i 1)

/-- The printed index maps over the grid: the activations' and the output's block row is the point's number, their block
    column 0; the three weights stay at block (0, 0). -/
theorem idx_facts : ∀ t : Fin cfg0.N,
    win0_0.index t (0 : Fin 2) = t.val ∧ win0_0.index t (1 : Fin 2) = 0
    ∧ win0_4.index t (0 : Fin 2) = t.val ∧ win0_4.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- What point t writes back is block t of `outArr`. -/
theorem flushed_eq (c : Dev nD) (t : Fin cfg0.N) :
    (dats m 0 c).flushed 4 t = ((cfg0.win 4).blk t).view.read (Elt Ideal) (outArr m c) := by
  show (cfg0.win 4).cut (grid0.coords t) ((dats m 0 c).after 4 t) = _
  rw [after0_4]
  unfold out0_4
  rw [View.canon_unit_zero origin2]
  simp only [View.ld_unit_zero (S := S1024x1024) origin2, View.ld_unit_zero (S := S1024x16) origin2,
    View.ld_unit_zero (S := S16x1024) origin2]
  obtain ⟨e00, e01, e40, e41, e10, e11, e20, e21, e30, e31⟩ := idx_facts t
  funext y
  show k0_pay1 (iblk m c 0 t) (iblk m c 1 t) (iblk m c 2 t) (iblk m c 3 t) y = outArr m c (((cfg0.win 4).blk t).view.emb y)
  unfold outArr
  refine block_value (iblk m c 0 t) (iblk m c 1 t) (iblk m c 2 t) (iblk m c 3 t) _ _ _ _ t.val ?_ ?_ ?_ ?_ y _ _ ?_ ?_
  · intro p d i hi
    show V m c main_v21 (((cfg0.win 0).blk t).view.emb (ix2 p d)) = V m c main_v21 (ix2 i d)
    refine congrArg _ (funext fun a => Fin.ext ?_)
    match a with
    | ⟨0, _⟩ => show win0_0.index t (0 : Fin 2) * 1024 + 1 * p.val = i.val; omega
    | ⟨1, _⟩ => show win0_0.index t (1 : Fin 2) * 1024 + 1 * d.val = d.val; omega
  · funext z
    show V m c main_v11 (((cfg0.win 1).blk t).view.emb z) = V m c main_v11 z
    refine congrArg _ (funext fun a => Fin.ext ?_)
    match a with
    | ⟨0, _⟩ => show win0_1.index t (0 : Fin 2) * 1024 + 1 * (z 0).val = (z 0).val; omega
    | ⟨1, _⟩ => show win0_1.index t (1 : Fin 2) * 1024 + 1 * (z 1).val = (z 1).val; omega
  · funext z
    show V m c main_v20 (((cfg0.win 2).blk t).view.emb z) = V m c main_v20 z
    refine congrArg _ (funext fun a => Fin.ext ?_)
    match a with
    | ⟨0, _⟩ => show win0_2.index t (0 : Fin 2) * 1024 + 1 * (z 0).val = (z 0).val; omega
    | ⟨1, _⟩ => show win0_2.index t (1 : Fin 2) * 16 + 1 * (z 1).val = (z 1).val; omega
  · funext z
    show V m c main_v18 (((cfg0.win 3).blk t).view.emb z) = V m c main_v18 z
    refine congrArg _ (funext fun a => Fin.ext ?_)
    match a with
    | ⟨0, _⟩ => show win0_3.index t (0 : Fin 2) * 16 + 1 * (z 0).val = (z 0).val; omega
    | ⟨1, _⟩ => show win0_3.index t (1 : Fin 2) * 1024 + 1 * (z 1).val = (z 1).val; omega
  · show win0_4.index t (0 : Fin 2) * 1024 + 1 * (y 0).val = t.val * 1024 + (y 0).val; omega
  · show win0_4.index t (1 : Fin 2) * 1024 + 1 * (y 1).val = (y 1).val; omega

/-- An index of the output array is in point t's block iff each coordinate is in the block's range on its axis. -/
theorem mem_blk (t : Fin cfg0.N) (i : S32768x1024.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v22).slice (win0_4.rect t)).set ↔ _
  rw [View.set_slice_whole, Rect.mem_set_unit]
  exact Iff.rfl

/-- Every index of the output array lies in some point's block: row i in the block of point i / 1024. -/
theorem covered (i : S32768x1024.Idx) :
    ∃ t : Fin cfg0.N, (cfg0.win 4).flush t = true ∧ i ∈ ((cfg0.win 4).blk t).view.set := by
  have hi0 : (i 0).val < 32768 := (i 0).isLt
  have hi1 : (i 1).val < 1024 := (i 1).isLt
  have ht : (i 0).val / 1024 < cfg0.N := by show _ < 32; omega
  refine ⟨⟨(i 0).val / 1024, ht⟩, flush0_4 _, ?_⟩
  obtain ⟨-, -, e40, e41, -⟩ := idx_facts ⟨(i 0).val / 1024, ht⟩
  rw [mem_blk]
  intro a
  match a with
  | ⟨0, _⟩ =>
    show win0_4.index _ (0 : Fin 2) * 1024 ≤ (i 0).val ∧ (i 0).val < win0_4.index _ (0 : Fin 2) * 1024 + 1024
    rw [e40]; show (i 0).val / 1024 * 1024 ≤ (i 0).val ∧ (i 0).val < (i 0).val / 1024 * 1024 + 1024; omega
  | ⟨1, _⟩ =>
    show win0_4.index _ (1 : Fin 2) * 1024 ≤ (i 1).val ∧ (i 1).val < win0_4.index _ (1 : Fin 2) * 1024 + 1024
    rw [e41]; omega

/-- The output array after the run is `outArr`. -/
theorem final_out (c : Dev nD) : (dats m 0 c).arrAt 4 cfg0.N = outArr m c :=
  (dats m 0 c).arrAt_eq_of_cover 4 (outArr m c) (fun t _ => flushed_eq m c t) covered

end Cert.Dora

end
-- ==== Proof.Spec.lean ====
/-
  The mathematics of the claim, with no program in sight.

  A weight-decomposed low-rank layer.  From a base weight W (out × in), adapter factors B (out × 16) and A (16 × in),
  and a magnitude vector, the EFFECTIVE weight is W + 2·(B·A); its row o has Euclidean norm nrm o, and the
  row's scale is scl o = magnitude o / nrm o.  The layer's output at (b, q, o) is scl o · (x·Wᵀ + 2·(x·Aᵀ)·Bᵀ).

  Two arrangements of that number are named here, entry by entry on the extended reals:
  `outK` folds the scale into the weights first (x · (Wᵀ scaled) + (x·Aᵀ) · (2·Bᵀ scaled)), and
  `outR` forms base = x·Wᵀ and lora = 2·(x·Aᵀ)·Bᵀ and returns base + ((scl − 1)·base + scl·lora).
  They agree whenever every input entry is a real number and no row norm vanishes (Proof/Algebra.lean): then every
  quantity is a real number and the two are equal by distributivity, which on the extended reals fails at ±∞.
-/
import Idealize.ShloMosaic.Lib.ValueIdx
import Idealize.ShloMosaic.Lib.IdealHost
import Idealize.ShloMosaic.PureOps.Ideal.Laws

noncomputable section

namespace Cert.Dora

open Idealize.ShloMosaic Idealize.ShloMosaic.ValueIdx

/-- The activations, batch × sequence × in. -/
abbrev SX : Shape := ⟨3, ![4, 8192, 1024]⟩
/-- The base weight, out × in. -/
abbrev SW : Shape := ⟨2, ![1024, 1024]⟩
/-- The adapter's down projection, rank × in. -/
abbrev SA : Shape := ⟨2, ![16, 1024]⟩
/-- The adapter's up projection, out × rank. -/
abbrev SB : Shape := ⟨2, ![1024, 16]⟩
/-- The magnitude, one row of out entries. -/
abbrev SM : Shape := ⟨2, ![1, 1024]⟩

/-- The adapter's scaling alpha / rank = 32 / 16, as the f32 word both programs carry. -/
abbrev two : EReal := Ideal.ofBits .f32 0x40000000#32

/-- Every entry of the array is a real number (neither infinity). -/
def IsReal {S : Shape} (v : S.Idx → EReal) : Prop := ∀ i, ∃ r : ℝ, v i = (r : EReal)

variable (x : FVec Ideal SX .f32) (W : FVec Ideal SW .f32) (A : FVec Ideal SA .f32) (B : FVec Ideal SB .f32)
  (mag : FVec Ideal SM .f32)

/-- Entry (o, d) of the effective weight W + 2·(B·A). -/
def weff (o d : Fin 1024) : EReal := W (ix2 o d) + two * ∑ r : Fin 16, B (ix2 o r) * A (ix2 r d)

/-- The Euclidean norm of row o of the effective weight. -/
def nrm (o : Fin 1024) : EReal := Ideal.sqrt (∑ d : Fin 1024, weff W A B o d * weff W A B o d)

/-- Row o's scale: its magnitude over its norm. -/
def scl (o : Fin 1024) : EReal := Ideal.div (mag (ix2 0 o)) (nrm W A B o)

/-- The activations at (b, q) projected on the adapter's r-th direction: (x·Aᵀ) at (b, q, r). -/
def proj (b : Fin 4) (q : Fin 8192) (r : Fin 16) : EReal := ∑ d : Fin 1024, x (ix3 b q d) * A (ix2 r d)

/-- The base layer's output x·Wᵀ at (b, q, o). -/
def base (b : Fin 4) (q : Fin 8192) (o : Fin 1024) : EReal := ∑ d : Fin 1024, x (ix3 b q d) * W (ix2 o d)

/-- The adapter's output (x·Aᵀ)·Bᵀ at (b, q, o), before its scaling by two. -/
def lora (b : Fin 4) (q : Fin 8192) (o : Fin 1024) : EReal := ∑ r : Fin 16, proj x A b q r * B (ix2 o r)

/-- The output with the scale folded into the weights: x against Wᵀ scaled column by column, plus x·Aᵀ against
    Bᵀ scaled column by column and by two. -/
def outK (b : Fin 4) (q : Fin 8192) (o : Fin 1024) : EReal :=
  (∑ d : Fin 1024, x (ix3 b q d) * (W (ix2 o d) * scl W A B mag o))
    + ∑ r : Fin 16, proj x A b q r * (B (ix2 o r) * (scl W A B mag o * two))

/-- The output as base + ((scale − 1)·base + scale·(2·lora)). -/
def outR (b : Fin 4) (q : Fin 8192) (o : Fin 1024) : EReal :=
  base x W b q o + ((scl W A B mag o - 1) * base x W b q o + scl W A B mag o * (two * lora x A B b q o))

end Cert.Dora

end
-- ==== Proof.NormRead.lean ====
/-
  The row norms of the effective weight, read off the chain of host operations that computes them.

  All three programs of this certificate form the norm vector the same way: the product B·A of the two adapter
  factors, every entry doubled by a broadcast scalar two, the base weight W added, the result squared entry by entry,
  each row summed from a zero start, and the square root taken of every row's sum.  Only the evidence for the shape
  facts (the scalar broadcasts to the weight's shape; the weight's shape loses its column axis; a rank-zero array
  has an entry) differs from program to program, so the chain is read here once, for whatever evidence it is given.

  `weff_read`: entry (o, d) of W + 2·(B·A) as the chain builds it is `weff W A B o d`.
  `nrm_read`:  entry o of the square-rooted row sums is `nrm W A B o`.
-/
import proofs.«168903_j20409684591173_1_alg».proof.Proof.Spec
import proofs.«168903_j20409684591173_1_alg».proof.Proof.LibMatmulPlain
import Idealize.ShloMosaic.PureOps.Ideal.Laws
import Idealize.ShloMosaic.Lib.IdealHost
import Idealize.ShloMosaic.Lib.ValueIdx

noncomputable section

namespace Cert.Dora

open Idealize.ShloMosaic Idealize.ShloMosaic.ValueIdx

/-- The effective weight as the host chain builds it, W + (splat of two)·(B·A), at entry (o, d): the pointwise
    operations read through at the index, the broadcast scalar reads its one entry, and the batch-free product is
    the sum over the adapter's rank coordinate. -/
theorem weff_read (D : DotDims SB SA SW) (hD : Cert.Gcn.IsPlain D)
    (hb : (⟨0, ![]⟩ : Shape).BroadcastsInDim SW (![] : Fin 0 → Fin SW.rank))
    (W : FVec Ideal SW .f32) (A : FVec Ideal SA .f32) (B : FVec Ideal SB .f32) (o d : Fin 1024) :
    addf W (mulf (broadcastInDim SW ![] hb (constant (F := Ideal) (⟨0, ![]⟩ : Shape) .f32 0x40000000#32))
                 (Host.dotGeneral D none B A)) (ix2 o d) = weff W A B o d := by
  rw [addf_apply, mulf_apply, broadcastInDim_scalar_apply, constant_apply, Cert.Gcn.dotGeneral_plain_apply D hD]
  rfl

/-- The norm vector as the host chain builds it, at entry o.  The sum over the column axis from the zero word is
    0 + ∑ d of the squared entry at the index with d inserted as column, which is (o, d); each squared entry is
    `weff · weff` by `weff_read`; the host's square root at the extended reals is `Ideal.sqrt`. -/
theorem nrm_read (D : DotDims SB SA SW) (hD : Cert.Gcn.IsPlain D)
    (hb : (⟨0, ![]⟩ : Shape).BroadcastsInDim SW (![] : Fin 0 → Fin SW.rank))
    (hr : SW.ReducesTo [1] (⟨1, ![1024]⟩ : Shape)) (h0 : 0 < (⟨0, ![]⟩ : Shape).numel)
    (W : FVec Ideal SW .f32) (A : FVec Ideal SA .f32) (B : FVec Ideal SB .f32) (o : Fin 1024) :
    Host.sqrt (Host.reduceAdd
        (mulf (addf W (mulf (broadcastInDim SW ![] hb (constant (F := Ideal) (⟨0, ![]⟩ : Shape) .f32 0x40000000#32))
                            (Host.dotGeneral D none B A)))
              (addf W (mulf (broadcastInDim SW ![] hb (constant (F := Ideal) (⟨0, ![]⟩ : Shape) .f32 0x40000000#32))
                            (Host.dotGeneral D none B A))))
        (constant (F := Ideal) (⟨0, ![]⟩ : Shape) .f32 0x00000000#32) hr h0) (ix1 o) = nrm W A B o := by
  have hR : SW.Reduces [1] (⟨1, ![1024]⟩ : Shape) := by decide
  have hlift : ∀ d : Fin 1024, hR.lift (ix1 o) d = ix2 o d := fun d => funext fun a => Fin.ext (by
    match a with
    | ⟨0, _⟩ => rfl
    | ⟨1, _⟩ => rfl)
  show Ideal.sqrt (Host.reduceAdd (F := Ideal) (φ := .f32) _ _ hr h0 (ix1 o)) = _
  rw [hostReduceAdd_apply, Ideal.hostReduceAdd_single hr hR, constant_apply, Ideal.ofBits_zero_f32, zero_add]
  unfold nrm
  congr 1
  refine Finset.sum_congr rfl fun d _ => ?_
  rw [hlift d, mulf_apply, weff_read D hD hb W A B o d]

end Cert.Dora

end
-- ==== Proof.KerPrefix.lean ====
/-
  What the kernel's region finds in its four input arrays, entry by entry on the extended reals.

  Before the region is entered the program prepares its operands from the five arguments x, W, A, B and the magnitude:
  it builds the effective weight W + 2·(B·A), takes the Euclidean norm of each of its rows, divides the magnitude by
  those norms to get one scale per output coordinate, and then lays the operands out for the region:
    window 0: x with its batch and sequence axes merged into one of 32768 rows;
    window 1: Wᵀ with column o multiplied by scale o;
    window 2: Aᵀ;
    window 3: Bᵀ with column o multiplied by scale o and by two.
  Each array is first written as one composed term of the arguments as the launch holds them, then that term is read
  at an index: narrowing to bf16 is the identity on the extended reals, products are entrywise, a transpose swaps
  the coordinates, a reshape keeps the row-major position, a vector spread along a new axis reads the vector at the
  remaining coordinate, and the scale vector's entry o is `scl … o` of Proof/Spec.lean (the norm by Proof/NormRead.lean).
-/
import proofs.«168903_j20409684591173_1_alg».proof.Proof.Gen.KernelIdeal.Frame
import proofs.«168903_j20409684591173_1_alg».proof.Proof.Spec
import proofs.«168903_j20409684591173_1_alg».proof.Proof.LibMatmulPlain
import proofs.«168903_j20409684591173_1_alg».proof.Proof.NormRead
import Idealize.ShloMosaic.Lib.ValueIdx
import Idealize.ShloMosaic.Lib.ValueLayout
import Idealize.ShloMosaic.Lib.IdealHost
import Idealize.ShloMosaic.Lib.Pipeline.Value

noncomputable section

namespace Cert.Dora

open Idealize.ShloMosaic Idealize.ShloMosaic.ValueIdx Idealize.ShloMosaic.TcCoe Idealize.ShloMosaic.StableHlo
open Cert.KernelIdeal Cert.KernelIdeal.Gen

variable (m : (ℓ : Loc nD τ sig) → Buf (Elt Ideal) ℓ)

/-! ## The five arguments as the launch memory holds them -/

/-- The activations x. -/
abbrev argX (c : Dev nD) : FVec Ideal SX .f32 := m ((c : Thread nD τ).loc main_arg0)
/-- The base weight W. -/
abbrev argW (c : Dev nD) : FVec Ideal SW .f32 := m ((c : Thread nD τ).loc main_arg1)
/-- The adapter's down projection A. -/
abbrev argA (c : Dev nD) : FVec Ideal SA .f32 := m ((c : Thread nD τ).loc main_arg2)
/-- The adapter's up projection B. -/
abbrev argB (c : Dev nD) : FVec Ideal SB .f32 := m ((c : Thread nD τ).loc main_arg3)
/-- The magnitude. -/
abbrev argM (c : Dev nD) : FVec Ideal SM .f32 := m ((c : Thread nD τ).loc main_arg4)

namespace Prefix

/-! ## The scale vector as the host operations build it -/

/-- The effective weight W + 2·(B·A) as the host operations before the region build it. -/
abbrev weffV (W : FVec Ideal SW .f32) (A : FVec Ideal SA .f32) (B : FVec Ideal SB .f32) : FVec Ideal SW .f32 :=
  addf W (mulf (broadcastInDim S1024x1024 ![] bcast_S_S1024x1024 (constant (F := Ideal) S_ .f32 0x40000000#32))
    (Host.dotGeneral dot_S1024x16_S16x1024_S1024x1024_1_0_0_1_n_n none B A))

/-- The row norms of the effective weight as the host builds them: the square root of each row's sum of squares. -/
abbrev nrmV (W : FVec Ideal SW .f32) (A : FVec Ideal SA .f32) (B : FVec Ideal SB .f32) : FVec Ideal S1024 .f32 :=
  Host.sqrt (Host.reduceAdd (mulf (weffV W A B) (weffV W A B)) (constant (F := Ideal) S_ .f32 0x00000000#32)
    reducesTo_S1024x1024_S1024_d1 h_S_)

/-- The scale vector as the host builds it: the magnitude, its unit axis dropped, over the row norms. -/
abbrev sclV (W : FVec Ideal SW .f32) (A : FVec Ideal SA .f32) (B : FVec Ideal SB .f32) (M : FVec Ideal SM .f32) :
    FVec Ideal S1024 .f32 :=
  Host.divf (shapeCast S1024 M shapeCasts_S1x1024_S1024) (nrmV W A B)

/-! ## The four window arrays as terms of the argument arrays -/

/-- Window 0's array is the activations, the batch and sequence axes merged. -/
theorem e_x2 (c : Dev nD) : (V m c main_v21 : S32768x1024.Idx → EReal)
    = shapeCast S32768x1024 (argX m c) shapeCasts_S4x8192x1024_S32768x1024 := by
  dsimp only [Gen.V, Gen.V0]
  simp only [Gen.hostOps0, Gen.hostOps0_1, Gen.hostOps0_2, List.flatten_cons, List.flatten_nil, List.append_nil, List.cons_append, List.nil_append]
  after_results <;> rfl

/-- Window 1's array is the transposed weight times the scale vector spread along the rows. -/
theorem e_w2 (c : Dev nD) : (V m c main_v11 : S1024x1024.Idx → EReal) =
    truncf .bf16 (mulf (transpose S1024x1024 [1, 0] (argW m c) transposes_S1024x1024_S1024x1024_1_0)
      (broadcastInDim S1024x1024 ![0, 1] bcast_S1x1024_S1024x1024_0_1
        (broadcastInDim S1x1024 ![1] bcast_S1024_S1x1024_1 (sclV (argW m c) (argA m c) (argB m c) (argM m c)))))
      bitsLt_bf16_f32 := by
  dsimp only [Gen.V, Gen.V0]
  simp only [Gen.hostOps0, Gen.hostOps0_1, Gen.hostOps0_2, List.flatten_cons, List.flatten_nil, List.append_nil, List.cons_append, List.nil_append]
  after_results <;> rfl

/-- Window 2's array is the down projection transposed. -/
theorem e_aT (c : Dev nD) : (V m c main_v20 : S1024x16.Idx → EReal)
    = truncf .bf16 (transpose S1024x16 [1, 0] (argA m c) transposes_S16x1024_S1024x16_1_0) bitsLt_bf16_f32 := by
  dsimp only [Gen.V, Gen.V0]
  simp only [Gen.hostOps0, Gen.hostOps0_1, Gen.hostOps0_2, List.flatten_cons, List.flatten_nil, List.append_nil, List.cons_append, List.nil_append]
  after_results <;> rfl

/-- Window 3's array is the up projection transposed, times the scale vector doubled and spread along the rows. -/
theorem e_b2 (c : Dev nD) : (V m c main_v18 : S16x1024.Idx → EReal) =
    truncf .bf16 (mulf (transpose S16x1024 [1, 0] (argB m c) transposes_S1024x16_S16x1024_1_0)
      (broadcastInDim S16x1024 ![0, 1] bcast_S1x1024_S16x1024_0_1
        (broadcastInDim S1x1024 ![1] bcast_S1024_S1x1024_1
          (mulf (sclV (argW m c) (argA m c) (argB m c) (argM m c))
            (broadcastInDim S1024 ![] bcast_S_S1024 (constant (F := Ideal) S_ .f32 0x40000000#32))))))
      bitsLt_bf16_f32 := by
  dsimp only [Gen.V, Gen.V0]
  simp only [Gen.hostOps0, Gen.hostOps0_1, Gen.hostOps0_2, List.flatten_cons, List.flatten_nil, List.append_nil, List.cons_append, List.nil_append]
  after_results <;> rfl

/-! ## Those terms read at one entry

On the extended reals the narrowing to bf16 changes nothing, a product of arrays is the product of the entries, a
transpose swaps the two coordinates, a reshape keeps the row-major position, and a vector spread along a new axis
reads the vector at the remaining coordinate. -/

/-- Merging the two leading axes: row b·8192 + q of the merged array is row (b, q) of the original. -/
theorem x2_at (X : FVec Ideal SX .f32) (b : Fin 4) (q : Fin 8192) (d : Fin 1024) (h : b.val * 8192 + q.val < 32768) :
    shapeCast S32768x1024 X shapeCasts_S4x8192x1024_S32768x1024 (ix2 (⟨b.val * 8192 + q.val, h⟩ : Fin 32768) d)
      = X (ix3 b q d) :=
  shapeCast_apply X _ _ _ (by
    rw [Shape.rowMajor_val_three, Shape.rowMajor_val_two]
    show (b.val * 8192 + q.val) * 1024 + d.val = (b.val * 8192 + q.val) * 1024 + d.val
    rfl)

/-- The transposed down projection at (d, r) is the down projection at (r, d). -/
theorem aT_at (A : FVec Ideal SA .f32) (d : Fin 1024) (r : Fin 16) :
    (truncf .bf16 (transpose S1024x16 [1, 0] A transposes_S16x1024_S1024x16_1_0) bitsLt_bf16_f32
      : FVec Ideal S1024x16 .bf16) (ix2 d r) = A (ix2 r d) :=
  transpose_ix2_apply A transposes_S16x1024_S1024x16_1_0 d r

/-- A vector of 1024 entries made a single row and then repeated down n rows reads, at (p, o), the vector at o. -/
theorem bc2_at {n : ℕ} (s : FVec Ideal S1024 .f32) (h1 : S1x1024.BroadcastsInDim (⟨2, ![n, 1024]⟩ : Shape) ![0, 1])
    (p : Fin n) (o : Fin 1024) :
    broadcastInDim (⟨2, ![n, 1024]⟩ : Shape) ![0, 1] h1 (broadcastInDim S1x1024 ![1] bcast_S1024_S1x1024_1 s) (ix2 p o)
      = s (ix1 o) :=
  (broadcastInDim_apply ![0, 1] h1 _ (ix2 p o) (ix2 (0 : Fin 1) o)
      fun a => match a with | ⟨0, _⟩ => rfl | ⟨1, _⟩ => rfl).trans
    (broadcastInDim_apply ![1] bcast_S1024_S1x1024_1 s (ix2 (0 : Fin 1) o) (ix1 o) fun a => match a with | ⟨0, _⟩ => rfl)

/-- The transposed weight times a vector spread along the rows: at (d, o), the weight at (o, d) times the vector at o. -/
theorem w2_at (W : FVec Ideal SW .f32) (s : FVec Ideal S1024 .f32) (d o : Fin 1024) :
    (truncf .bf16 (mulf (transpose S1024x1024 [1, 0] W transposes_S1024x1024_S1024x1024_1_0)
      (broadcastInDim S1024x1024 ![0, 1] bcast_S1x1024_S1024x1024_0_1
        (broadcastInDim S1x1024 ![1] bcast_S1024_S1x1024_1 s))) bitsLt_bf16_f32 : FVec Ideal S1024x1024 .bf16) (ix2 d o)
      = W (ix2 o d) * s (ix1 o) :=
  congrArg₂ (· * ·) (transpose_ix2_apply W transposes_S1024x1024_S1024x1024_1_0 d o)
    (bc2_at s bcast_S1x1024_S1024x1024_0_1 d o)

/-- The transposed up projection times a doubled vector spread along the rows: at (r, o), the up projection at (o, r)
    times the vector at o times two. -/
theorem b2_at (B : FVec Ideal SB .f32) (s : FVec Ideal S1024 .f32) (r : Fin 16) (o : Fin 1024) :
    (truncf .bf16 (mulf (transpose S16x1024 [1, 0] B transposes_S1024x16_S16x1024_1_0)
      (broadcastInDim S16x1024 ![0, 1] bcast_S1x1024_S16x1024_0_1
        (broadcastInDim S1x1024 ![1] bcast_S1024_S1x1024_1
          (mulf s (broadcastInDim S1024 ![] bcast_S_S1024 (constant (F := Ideal) S_ .f32 0x40000000#32))))))
      bitsLt_bf16_f32 : FVec Ideal S16x1024 .bf16) (ix2 r o)
      = B (ix2 o r) * (s (ix1 o) * two) :=
  congrArg₂ (· * ·) (transpose_ix2_apply B transposes_S1024x16_S16x1024_1_0 r o)
    ((bc2_at _ bcast_S1x1024_S16x1024_0_1 r o).trans
      (congrArg (s (ix1 o) * ·)
        (broadcastInDim_scalar_apply bcast_S_S1024 (constant (F := Ideal) S_ .f32 0x40000000#32) (ix1 o))))

/-- The host's row norm at o is the Euclidean norm of row o of the effective weight. -/
theorem nrmV_apply (W : FVec Ideal SW .f32) (A : FVec Ideal SA .f32) (B : FVec Ideal SB .f32) (o : Fin 1024) :
    nrmV W A B (ix1 o) = nrm W A B o :=
  nrm_read dot_S1024x16_S16x1024_S1024x1024_1_0_0_1_n_n ⟨rfl, rfl, rfl, rfl, rfl, rfl⟩ bcast_S_S1024x1024
    reducesTo_S1024x1024_S1024_d1 h_S_ W A B o

/-- The host's scale vector at o is row o's scale: the magnitude at (0, o) over the row's norm. -/
theorem sclV_apply (W : FVec Ideal SW .f32) (A : FVec Ideal SA .f32) (B : FVec Ideal SB .f32) (M : FVec Ideal SM .f32)
    (o : Fin 1024) : sclV W A B M (ix1 o) = scl W A B M o := by
  show Ideal.div (shapeCast S1024 M shapeCasts_S1x1024_S1024 (ix1 o)) (nrmV W A B (ix1 o))
    = Ideal.div (M (ix2 0 o)) (nrm W A B o)
  rw [nrmV_apply W A B o, shapeCast_1a_a_apply M shapeCasts_S1x1024_S1024 o]

end Prefix

open Prefix

/-! ## What the region finds in its four input arrays -/

/-- Window 0: the activations, row b·8192 + q holding position (b, q). -/
theorem V_x2 (c : Dev nD) (b : Fin 4) (q : Fin 8192) (d : Fin 1024) :
    V m c main_v21 (ix2 (⟨b.val * 8192 + q.val, by omega⟩ : Fin 32768) d) = argX m c (ix3 b q d) :=
  (congrFun (e_x2 m c) _).trans (x2_at (argX m c) b q d _)

/-- Window 1: the weight transposed, each column o scaled by row o's scale. -/
theorem V_w2 (c : Dev nD) (d o : Fin 1024) :
    V m c main_v11 (ix2 d o) = argW m c (ix2 o d) * scl (argW m c) (argA m c) (argB m c) (argM m c) o :=
  (congrFun (e_w2 m c) (ix2 d o)).trans
    ((w2_at (argW m c) (sclV (argW m c) (argA m c) (argB m c) (argM m c)) d o).trans
      (congrArg (argW m c (ix2 o d) * ·) (sclV_apply (argW m c) (argA m c) (argB m c) (argM m c) o)))

/-- Window 2: the down projection transposed. -/
theorem V_aT (c : Dev nD) (d : Fin 1024) (r : Fin 16) : V m c main_v20 (ix2 d r) = argA m c (ix2 r d) :=
  (congrFun (e_aT m c) (ix2 d r)).trans (aT_at (argA m c) d r)

/-- Window 3: the up projection transposed, each column o scaled by row o's scale and by two. -/
theorem V_b2 (c : Dev nD) (r : Fin 16) (o : Fin 1024) :
    V m c main_v18 (ix2 r o)
      = argB m c (ix2 o r) * (scl (argW m c) (argA m c) (argB m c) (argM m c) o * two) :=
  (congrFun (e_b2 m c) (ix2 r o)).trans
    ((b2_at (argB m c) (sclV (argW m c) (argA m c) (argB m c) (argM m c)) r o).trans
      (congrArg (fun s => argB m c (ix2 o r) * (s * two)) (sclV_apply (argW m c) (argA m c) (argB m c) (argM m c) o)))

end Cert.Dora

end
-- ==== Proof.KerRun.lean ====
/-
  The kernel program's run, with its result named.

  After the region the program only reshapes the 32768 × 1024 output back to batch × sequence × out: entry (b, q, o) of the
  result is entry (b·8192 + q, o) of the output array, the two having the same row-major position.  The output array is
  `outArr` (Proof/KerValue.lean): row i of the merged activations against the prepared weights.  With what the region
  finds in its four input arrays (Proof/KerPrefix.lean) — the activations merged, Wᵀ and Bᵀ scaled column by column,
  Aᵀ — that entry is, operand for operand, the arrangement `outK` of Proof/Spec.lean.
-/
import proofs.«168903_j20409684591173_1_alg».proof.Proof.KerValue
import proofs.«168903_j20409684591173_1_alg».proof.Proof.KerPrefix
import Idealize.ShloMosaic.Lib.StableHlo.Run

set_option maxRecDepth 16384

noncomputable section

namespace Cert.Dora

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The result buffer after the one operation that follows the region: the output array, reshaped. -/
theorem tail_eq (c : Dev nD) :
    (Pipeline.afterTail₀ cfgs (dats m) 0 (V0 m) [hostOps1] c main_v23 : S4x8192x1024.Idx → EReal)
      = shapeCast S4x8192x1024 (outArr m c) shapeCasts_S32768x1024_S4x8192x1024 := by
  unfold Pipeline.afterTail₀
  show StableHlo.after hostOps1 _ (Proc.devRef .tc main_v23) = _
  after_results
  have e : Pipeline.withArrays (cfgs 0).spec c (V0 m c) (fun w => (dats m 0 c).arrAt w (cfgs 0).N)
      (Proc.tc.devRef main_v22) = outArr m c :=
    (Pipeline.withArrays_arr spec0 launch0.win.arr_inj c _ _ 4).trans (final_out m c)
  rw [e]
  rfl

/-- Entry (b, q, o) of the result is the arrangement `outK` of the five arguments as launched. -/
theorem result_apply (c : Dev nD) (b : Fin 4) (q : Fin 8192) (o : Fin 1024) :
    (Pipeline.afterTail₀ cfgs (dats m) 0 (V0 m) [hostOps1] c main_v23 : S4x8192x1024.Idx → EReal) (ix3 b q o)
      = outK (argX m c) (argW m c) (argA m c) (argB m c) (argM m c) b q o := by
  have hrow : b.val * 8192 + q.val < 32768 := by have := b.isLt; have := q.isLt; omega
  rw [tail_eq, shapeCast_apply (outArr m c) _ (ix3 b q o) (ix2 (⟨b.val * 8192 + q.val, hrow⟩ : Fin 32768) o) (by
    rw [Shape.rowMajor_val_two, Shape.rowMajor_val_three]; rfl)]
  show rowsOut (V m c main_v21) (V m c main_v11) (V m c main_v20) (V m c main_v18) ⟨b.val * 8192 + q.val, hrow⟩ o = _
  unfold rowsOut outK proj
  refine congrArg₂ (· + ·) (Finset.sum_congr rfl fun d _ => ?_) (Finset.sum_congr rfl fun r _ => ?_)
  · exact congrArg₂ (· * ·) (V_x2 m c b q d) (V_w2 m c d o)
  · exact congrArg₂ (· * ·)
      (Finset.sum_congr rfl fun d _ => congrArg₂ (· * ·) (V_x2 m c b q d) (V_aT m c d r)) (V_b2 m c r o)

/-- The whole result array. -/
theorem result_eq (c : Dev nD) :
    (Pipeline.afterTail₀ cfgs (dats m) 0 (V0 m) [hostOps1] c main_v23 : S4x8192x1024.Idx → EReal)
      = fun i => outK (argX m c) (argW m c) (argA m c) (argB m c) (argM m c) (i 0) (i 1) (i 2) := by
  funext i
  obtain ⟨b, q, o, rfl⟩ : ∃ (b : Fin 4) (q : Fin 8192) (o : Fin 1024), i = ix3 b q o := ⟨i 0, i 1, i 2, eq_ix3 i⟩
  exact result_apply m c b q o

/-- Every weakly fair execution of the idealized kernel program terminates with its result at `outK` of the arguments,
    entry by entry, and the arguments unchanged: the frame run, its post read at the result buffer and at the arguments. -/
theorem kernel_run : θ_run defs (onTc (τ := τ) (main (F := Ideal))) ⟨m, fun _ => 0, ρ⟩ fun r => ∀ c : Dev nD,
      r.2.mem ((c.tc : Thread nD τ).loc main_v23)
        = (fun i => outK (argX m c) (argW m c) (argA m c) (argB m c) (argM m c) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v23 (Pipeline.mem_restRefs_of main_v23 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Dora

end
-- ==== Proof.RefValue.lean ====
/-
  The reference's result, entry by entry, is the arrangement `outR` of Proof/Spec.lean.

  The reference computes the layer in stages: the base product x·Wᵀ; the adapter's projection x·Aᵀ and from it
  (x·Aᵀ)·Bᵀ, then twice that; the effective weight W + 2·(B·A), the Euclidean norm of each of its rows, and
  the row's scale magnitude / norm, carried through two reshapings that only rename its one running coordinate; last
  base + ((scale − 1)·base + scale·(2·lora)). Each stage is read here at an index given by its coordinates
  and identified with the quantity Proof/Spec.lean names for it; each contraction is a sum whose two operand indices
  are, coordinate by coordinate, the ones the specification writes. The last theorem puts the stages together.
-/
import proofs.«168903_j20409684591173_1_alg».proof.Proof.Spec
import proofs.«168903_j20409684591173_1_alg».proof.Proof.Gen.ReferenceIdeal.Run
import proofs.«168903_j20409684591173_1_alg».proof.Proof.Gen.ReferenceIdeal.Read

noncomputable section

namespace Cert.Dora

open Idealize.ShloMosaic Idealize.ShloMosaic.ValueIdx Cert.ReferenceIdeal Cert.ReferenceIdeal.Read

variable (x : FVec Ideal SX .f32) (W : FVec Ideal SW .f32) (A : FVec Ideal SA .f32) (B : FVec Ideal SB .f32)
  (mag : FVec Ideal SM .f32)

/-- The first contraction, x against W over the input axis, is the base output: at (b, q, o) the left operand is
    read at (b, q, d) and the right one at (o, d). -/
theorem ref_base (b : Fin 4) (q : Fin 8192) (o : Fin 1024) :
    val_main_v0 (F := Ideal) x W (ix3 b q o) = base x W b q o := by
  rw [val_main_v0_apply]
  unfold base
  refine Finset.sum_congr rfl fun d _ => ?_
  have el : lidx_main_v0 (ix3 b q o) d = ix3 b q d :=
    funext fun a => Fin.ext (by match a with | ⟨0, _⟩ => rfl | ⟨1, _⟩ => rfl | ⟨2, _⟩ => rfl)
  have er : ridx_main_v0 (ix3 b q o) d = ix2 o d :=
    funext fun a => Fin.ext (by match a with | ⟨0, _⟩ => rfl | ⟨1, _⟩ => rfl)
  rw [el, er]

/-- The second contraction, x against A over the input axis, is the projection on the adapter's directions. -/
theorem ref_proj (b : Fin 4) (q : Fin 8192) (r : Fin 16) :
    val_main_v1 (F := Ideal) x A (ix3 b q r) = proj x A b q r := by
  rw [val_main_v1_apply]
  unfold proj
  refine Finset.sum_congr rfl fun d _ => ?_
  have el : lidx_main_v1 (ix3 b q r) d = ix3 b q d :=
    funext fun a => Fin.ext (by match a with | ⟨0, _⟩ => rfl | ⟨1, _⟩ => rfl | ⟨2, _⟩ => rfl)
  have er : ridx_main_v1 (ix3 b q r) d = ix2 r d :=
    funext fun a => Fin.ext (by match a with | ⟨0, _⟩ => rfl | ⟨1, _⟩ => rfl)
  rw [el, er]

/-- The third contraction, the projection against B over the rank axis, is the adapter's output before its
    scaling. -/
theorem ref_lora (b : Fin 4) (q : Fin 8192) (o : Fin 1024) :
    val_main_v2 (F := Ideal) x A B (ix3 b q o) = lora x A B b q o := by
  rw [val_main_v2_apply]
  unfold lora
  refine Finset.sum_congr rfl fun r _ => ?_
  have el : lidx_main_v2 (ix3 b q o) r = ix3 b q r :=
    funext fun a => Fin.ext (by match a with | ⟨0, _⟩ => rfl | ⟨1, _⟩ => rfl | ⟨2, _⟩ => rfl)
  have er : ridx_main_v2 (ix3 b q o) r = ix2 o r :=
    funext fun a => Fin.ext (by match a with | ⟨0, _⟩ => rfl | ⟨1, _⟩ => rfl)
  rw [el, er, ref_proj]

/-- The adapter's output times the constant two, the constant on the left. -/
theorem ref_lora_scaled (b : Fin 4) (q : Fin 8192) (o : Fin 1024) :
    val_main_v4 (F := Ideal) x A B (ix3 b q o) = two * lora x A B b q o := by
  rw [val_main_v4_apply, val_main_v3_apply, val_main_cst_apply, ref_lora, Ideal.mulf_def, Ideal.ofBits_def]

/-- The effective weight: W plus two times the product of B and A, contracted over the rank axis; at (o, d) the
    factors are read at (o, r) and (r, d). -/
theorem ref_weff (o d : Fin 1024) :
    val_main_v8 (F := Ideal) W A B (ix2 o d) = weff W A B o d := by
  rw [val_main_v8_apply, val_main_v7_apply, val_main_v6_apply, val_main_cst_0_apply, val_main_v5_apply,
    Ideal.addf_def, Ideal.mulf_def, Ideal.ofBits_def]
  unfold weff
  refine congrArg (fun t => W (ix2 o d) + two * t) (Finset.sum_congr rfl fun r _ => ?_)
  have el : lidx_main_v5 (ix2 o d) r = ix2 o r :=
    funext fun a => Fin.ext (by match a with | ⟨0, _⟩ => rfl | ⟨1, _⟩ => rfl)
  have er : ridx_main_v5 (ix2 o d) r = ix2 r d :=
    funext fun a => Fin.ext (by match a with | ⟨0, _⟩ => rfl | ⟨1, _⟩ => rfl)
  rw [el, er]

/-- The row norm: the square root of the sum along row o of the squared effective weight. The sum starts from the
    zero word, which is the extended real 0 and drops out. -/
theorem ref_nrm (o : Fin 1024) :
    val_main_v9 (F := Ideal) W A B (ix1 o) = nrm W A B o := by
  rw [val_main_v9_apply, val_main_call0_v1_apply, val_main_call0_cst_apply, Ideal.hostUnary_sqrt_def,
    Ideal.ofBits_def, Ideal.ofBits_zero_f32, zero_add]
  unfold nrm
  refine congrArg Ideal.sqrt (Finset.sum_congr rfl fun d _ => ?_)
  have e : idx_main_call0_v1 (ix1 o) d = ix2 o d :=
    funext fun a => Fin.ext (by match a with | ⟨0, _⟩ => rfl | ⟨1, _⟩ => rfl)
  rw [e, val_main_call0_v0_apply, ref_weff, Ideal.mulf_def]

/-- The scale as the 1 × 1 × out array the reference keeps it in: entry (0, 0, o) is the magnitude at (0, o) over
    the norm of row o. The reshaping from 1 × out reads the flat position o, and the norms, a vector of out
    entries, were spread along the second axis of 1 × out. -/
theorem ref_scl (o : Fin 1024) :
    val_main_v12 (F := Ideal) W A B mag (ix3 0 0 o) = scl W A B mag o := by
  have e12 : idx_main_v12 (ix3 (0 : Fin 1) (0 : Fin 1) o) = ix2 (0 : Fin 1) o :=
    funext fun a => Fin.ext (by
      match a with
      | ⟨0, _⟩ => rfl
      | ⟨1, _⟩ => show ((0 * 1 + 0) * 1024 + o.val) % 1024 = o.val; have := o.isLt; omega)
  have e10 : idx_main_v10 (ix2 (0 : Fin 1) o) = ix1 o :=
    funext fun a => Fin.ext (by match a with | ⟨0, _⟩ => rfl)
  rw [val_main_v12_apply, e12, val_main_v11_apply, val_main_v10_apply, e10, ref_nrm, Ideal.hostDivf_def]
  rfl

/-- THE REFERENCE'S RESULT. At (b, q, o) the scale and the scale minus one are both spread from entry (0, 0, o) of
    the 1 × 1 × out array; the one word is the extended real 1; what is left is
    base + ((scale − 1)·base + scale·(2·lora)), operand for operand the arrangement `outR`. -/
theorem ref_value :
    Cert.ReferenceIdeal.Read.val_main_v20 (F := Ideal) x W A B mag = fun i => outR x W A B mag (i 0) (i 1) (i 2) := by
  funext i
  obtain ⟨b, q, o, rfl⟩ : ∃ b q o, i = ix3 b q o := ⟨i 0, i 1, i 2, eq_ix3 i⟩
  have e15 : idx_main_v15 (ix3 b q o) = ix3 (0 : Fin 1) (0 : Fin 1) o :=
    funext fun a => Fin.ext (by match a with | ⟨0, _⟩ => rfl | ⟨1, _⟩ => rfl | ⟨2, _⟩ => rfl)
  have e17 : idx_main_v17 (ix3 b q o) = ix3 (0 : Fin 1) (0 : Fin 1) o :=
    funext fun a => Fin.ext (by match a with | ⟨0, _⟩ => rfl | ⟨1, _⟩ => rfl | ⟨2, _⟩ => rfl)
  rw [val_main_v20_apply, val_main_v19_apply, val_main_v16_apply, val_main_v18_apply, val_main_v15_apply,
    val_main_v17_apply, e15, e17, val_main_v14_apply, val_main_v13_apply, val_main_cst_1_apply, ref_scl, ref_base,
    ref_lora_scaled, Ideal.ofBits_def, Ideal.ofBits_one_f32]
  rfl

end Cert.Dora

end
-- ==== Proof.PreRead.lean ====
/-
  The printed precondition, decoded.

  The precondition is one truth value: for each of the five inputs "the absolute value of every entry is below +∞",
  and "no entry of the norm vector equals zero", each an all-reduction by `and` of an elementwise comparison, the six
  joined by `and`.  If the whole is true then each of the six is; an all-reduction that is true had a true comparison
  at every index; a true `|v| < +∞` on the extended reals says v is a real number (at either infinity the absolute
  value is +∞, which is not below itself); and a true `n ≠ 0` says just that of the norm, which `nrm_read` names
  `nrm W A B o`.
-/
import proofs.«168903_j20409684591173_1_alg».proof.Proof.NormRead
import proofs.«168903_j20409684591173_1_alg».proof.Pre_finite_inputs
import Idealize.ShloMosaic.Lib.ReduceAll
import Idealize.ShloMosaic.Lib.IdealHost
import Idealize.ShloMosaic.Lib.ValueIdx
import Idealize.ShloMosaic.PureOps.Ideal.Laws
import Mathlib.Data.EReal.Basic

noncomputable section

namespace Cert.Dora

open Idealize.ShloMosaic Idealize.ShloMosaic.ValueIdx

/-- The word 0x7F800000 is +∞. -/
theorem pre_ofBits_inf_f32 : Ideal.ofBits .f32 0x7F800000#32 = ⊤ := by simp [Ideal.ofBits, Ideal.ieee]

/-- A true "|v| < +∞" says v is a real number: at −∞ and at +∞ the larger of v and −v is +∞. -/
theorem pre_real_of_abs_lt_inf (v : EReal)
    (h : Ideal.cmp .olt (max v (-v)) (Ideal.ofBits .f32 0x7F800000#32) = 1#1) : ∃ r : ℝ, v = (r : EReal) := by
  rw [pre_ofBits_inf_f32] at h
  induction v using EReal.rec with
  | bot => exact absurd h (by simp [Ideal.cmp])
  | coe r => exact ⟨r, rfl⟩
  | top => exact absurd h (by simp [Ideal.cmp])

/-- One input's conjunct: the all-reduction of "|v| < splat of +∞" being true at the one result index makes every
    entry of v a real number. -/
theorem pre_isReal_of_all {S : Shape} {axes : List (Fin S.rank)}
    (hb : (⟨0, ![]⟩ : Shape).BroadcastsInDim S (![] : Fin 0 → Fin S.rank))
    (hr : S.ReducesTo axes (⟨0, ![]⟩ : Shape)) (h0 : 0 < (⟨0, ![]⟩ : Shape).numel) (v : FVec Ideal S .f32)
    (h : Host.reduce IntOp.andi
          (cmpf .olt (Host.absf v) (broadcastInDim S ![] hb (constant (F := Ideal) (⟨0, ![]⟩ : Shape) .f32 0x7F800000#32)))
          (constantI (⟨0, ![]⟩ : Shape) 1 1#1) hr h0 ix0 = 1#1) : IsReal v := by
  haveI : Subsingleton (⟨0, ![]⟩ : Shape).Idx := ⟨fun a b => funext fun d => d.elim0⟩
  intro i
  have e := Host.reduce_andi_all _ _ hr h0 ix0 h i
  rw [cmpf_apply, broadcastInDim_scalar_apply, constant_apply] at e
  exact pre_real_of_abs_lt_inf (v i) e

/-- The precondition read back: every input entry is a real number and no row norm of the effective weight is zero. -/
theorem pre_reads [Cert.Pre_finite_inputs.Facts] (x : FVec Ideal SX .f32) (W : FVec Ideal SW .f32)
    (A : FVec Ideal SA .f32) (B : FVec Ideal SB .f32) (mag : FVec Ideal SM .f32)
    (h : Cert.Pre_finite_inputs.fn (F := Ideal) x W A B mag = fun _ => 1#1) :
    IsReal x ∧ IsReal W ∧ IsReal A ∧ IsReal B ∧ IsReal mag ∧ ∀ o, nrm W A B o ≠ 0 := by
  have h' := congrFun h ix0
  dsimp only [Cert.Pre_finite_inputs.fn, Cert.Pre_finite_inputs.fn_part1, Cert.Pre_finite_inputs.fn_part2] at h'
  obtain ⟨h5, hn⟩ := IntOp.andi_eq_one.1 h'
  obtain ⟨h4, hmag⟩ := IntOp.andi_eq_one.1 h5
  obtain ⟨h3, hB⟩ := IntOp.andi_eq_one.1 h4
  obtain ⟨h2, hA⟩ := IntOp.andi_eq_one.1 h3
  obtain ⟨hx, hW⟩ := IntOp.andi_eq_one.1 h2
  refine ⟨pre_isReal_of_all _ _ _ x hx, pre_isReal_of_all _ _ _ W hW, pre_isReal_of_all _ _ _ A hA, pre_isReal_of_all _ _ _ B hB,
    pre_isReal_of_all _ _ _ mag hmag, fun o => ?_⟩
  haveI : Subsingleton (⟨0, ![]⟩ : Shape).Idx := ⟨fun a b => funext fun d => d.elim0⟩
  have e := Host.reduce_andi_all _ _ _ _ ix0 hn (ix1 o)
  rw [cmpf_apply, broadcastInDim_scalar_apply, constant_apply, Ideal.ofBits_zero_f32,
    nrm_read _ ⟨rfl, rfl, rfl, rfl, rfl, rfl⟩] at e
  intro hz
  rw [hz] at e
  exact absurd e (by simp [Ideal.cmpf_def, Ideal.cmp])

end Cert.Dora

end
-- ==== Proof.Algebra.lean ====
/-
  The two arrangements of the layer's output agree, on the extended reals, once every input entry is a real
  number and no row norm vanishes.

  On the extended reals multiplication does not distribute over addition at the infinities, so the identity is
  not proved there.  Instead every quantity of the specification is first shown to be (the image of) a real
  number: the effective weight, the sum of its squares (a nonnegative real, so its square root is the real
  square root), the row norm, and the row scale magnitude / norm (the norm being a nonzero real, the quotient
  is the product with the real reciprocal).  With s the real scale, b the real base output and l the real adapter
  output, the folded form is  Σ x·(W·s) + Σ p·(B·(s·2)) = s·b + 2·s·l  and the reference form is
  b + ((s − 1)·b + s·(2·l)); these are equal in any commutative ring.
-/
import proofs.«168903_j20409684591173_1_alg».proof.Proof.Spec
import Mathlib.Data.EReal.Basic
import Mathlib.Data.EReal.Operations
import Mathlib.Data.EReal.Inv
import Mathlib.Algebra.BigOperators.Ring.Finset
import Mathlib.Tactic.Ring
import Mathlib.Tactic.NormNum

noncomputable section

namespace Cert.Dora

open Idealize.ShloMosaic Idealize.ShloMosaic.ValueIdx

/-- The adapter's scaling word denotes the real number two. -/
theorem two_eq : two = ((2 : ℝ) : EReal) := by
  simp [two, Ideal.ofBits, Ideal.ieee, -EReal.coe_mul]; norm_num

/-- A finite sum of real numbers, taken on the extended reals, is the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

section
variable (W : FVec Ideal SW .f32) (A : FVec Ideal SA .f32) (B : FVec Ideal SB .f32) (mag : FVec Ideal SM .f32)

/-- With real entries, the row norm of the effective weight is a nonnegative real number. -/
theorem nrm_real (hW : IsReal W) (hA : IsReal A) (hB : IsReal B) (o : Fin 1024) :
    ∃ n : ℝ, nrm W A B o = (n : EReal) := by
  choose Wr hWr using hW
  choose Ar hAr using hA
  choose Br hBr using hB
  -- each entry of the effective weight is a real number e d
  have hweff : ∀ d : Fin 1024, weff W A B o d
      = ((Wr (ix2 o d) + 2 * ∑ r : Fin 16, Br (ix2 o r) * Ar (ix2 r d) : ℝ) : EReal) := by
    intro d
    unfold weff
    rw [two_eq]
    simp only [hWr, hAr, hBr, ← EReal.coe_mul, coe_sum, ← EReal.coe_add]
  -- so the sum of squares is a real number, and a nonnegative one
  refine ⟨Real.sqrt (∑ d : Fin 1024, (Wr (ix2 o d) + 2 * ∑ r : Fin 16, Br (ix2 o r) * Ar (ix2 r d))
      * (Wr (ix2 o d) + 2 * ∑ r : Fin 16, Br (ix2 o r) * Ar (ix2 r d))), ?_⟩
  unfold nrm
  simp only [hweff, ← EReal.coe_mul, coe_sum]
  rw [Ideal.sqrt_coe, if_neg]
  exact not_lt.mpr (Finset.sum_nonneg (fun d _ => mul_self_nonneg _))

/-- With real entries and a nonvanishing row norm, the row scale is a real number. -/
theorem scl_real (hW : IsReal W) (hA : IsReal A) (hB : IsReal B) (hm : IsReal mag) (o : Fin 1024)
    (hn : nrm W A B o ≠ 0) : ∃ s : ℝ, scl W A B mag o = (s : EReal) := by
  obtain ⟨n, hnr⟩ := nrm_real W A B hW hA hB o
  obtain ⟨m, hmr⟩ := hm (ix2 0 o)
  have hn0 : n ≠ 0 := by
    intro h
    apply hn
    rw [hnr, h, EReal.coe_zero]
  refine ⟨m * (1 / n), ?_⟩
  unfold scl
  rw [hnr, Ideal.div_coe hn0, hmr, ← EReal.coe_mul]

end

/-- The folded and the reference arrangement of the output are the same extended real, entry by entry. -/
theorem outK_eq_outR (x : FVec Ideal SX .f32) (W : FVec Ideal SW .f32) (A : FVec Ideal SA .f32)
    (B : FVec Ideal SB .f32) (mag : FVec Ideal SM .f32)
    (hx : IsReal x) (hW : IsReal W) (hA : IsReal A) (hB : IsReal B) (hm : IsReal mag)
    (hn : ∀ o, nrm W A B o ≠ 0)
    (b : Fin 4) (q : Fin 8192) (o : Fin 1024) : outK x W A B mag b q o = outR x W A B mag b q o := by
  obtain ⟨s, hs⟩ := scl_real W A B mag hW hA hB hm o (hn o)
  choose xr hxr using hx
  choose Wr hWr using hW
  choose Ar hAr using hA
  choose Br hBr using hB
  unfold outK outR base lora proj
  rw [hs, two_eq, show (1 : EReal) = ((1 : ℝ) : EReal) from rfl]
  simp only [hxr, hWr, hAr, hBr, ← EReal.coe_mul, coe_sum, ← EReal.coe_add, ← EReal.coe_sub]
  -- both sides are now images of real numbers; the identity is one of real numbers
  congr 1
  have h1 : ∑ d : Fin 1024, xr (ix3 b q d) * (Wr (ix2 o d) * s)
      = s * ∑ d : Fin 1024, xr (ix3 b q d) * Wr (ix2 o d) := by
    rw [Finset.mul_sum]
    exact Finset.sum_congr rfl (fun d _ => by ring)
  have h2 : ∑ r : Fin 16, (∑ d : Fin 1024, xr (ix3 b q d) * Ar (ix2 r d)) * (Br (ix2 o r) * (s * 2))
      = 2 * s * ∑ r : Fin 16, (∑ d : Fin 1024, xr (ix3 b q d) * Ar (ix2 r d)) * Br (ix2 o r) := by
    rw [Finset.mul_sum]
    exact Finset.sum_congr rfl (fun r _ => by ring)
  rw [h1, h2]
  ring

end Cert.Dora

end
-- ==== Proof.lean ====
/-
  A weight-decomposed low-rank linear layer, fused into one kernel, against its textbook reference, on the extended reals.

  From a base weight W (out × in), adapter factors B (out × 16) and A (16 × in) and a magnitude vector, both programs form
  the effective weight W + 2·(B·A), the Euclidean norm of each of its rows, and the row scale s = magnitude / norm.  The
  reference returns  base + ((s − 1)·base + s·(2·lora))  with base = x·Wᵀ and lora = (x·Aᵀ)·Bᵀ.  The kernel folds the
  scale into the weights beforehand and computes  x·(Wᵀ scaled) + (x·Aᵀ)·(2·Bᵀ scaled)  block of rows by block of rows.

  The two agree by distributivity, which on the extended reals holds only away from the infinities: the scale must be
  a real number.  The inputs being finite does not give that (a row of the effective weight may vanish, and then the
  scale is a quotient by zero, on which the two arrangements really differ), so the precondition also asks that no row
  norm is zero — outside that domain the reference's own quotient is not a number.  Under it every quantity is a real
  number and the identity is one of real numbers (Proof/Algebra.lean).

  The pieces: Proof/Spec.lean names the two arrangements; Proof/PreRead.lean reads the precondition; Proof/RefValue.lean
  reads the reference's run as the second arrangement; Proof/KerBody.lean, KerValue.lean, KerPrefix.lean and KerRun.lean
  read the kernel program's run as the first.  The three programs run and keep their arguments (the frames); the
  idealized kernel is the kernel's own text read on the extended reals (nothing was rewritten).
-/
import proofs.«168903_j20409684591173_1_alg».proof.Defs
import proofs.«168903_j20409684591173_1_alg».proof.Proof.Gen.Kernel
import proofs.«168903_j20409684591173_1_alg».proof.Proof.Gen.Kernel.Frame
import proofs.«168903_j20409684591173_1_alg».proof.Proof.Gen.KernelIdeal
import proofs.«168903_j20409684591173_1_alg».proof.Proof.Gen.KernelIdeal.Frame
import proofs.«168903_j20409684591173_1_alg».proof.Proof.Gen.ReferenceIdeal
import proofs.«168903_j20409684591173_1_alg».proof.Proof.Gen.ReferenceIdeal.Run
import proofs.«168903_j20409684591173_1_alg».proof.Proof.Gen.ReferenceIdeal.Read
import proofs.«168903_j20409684591173_1_alg».proof.Proof.Gen.Pre_finite_inputs
import proofs.«168903_j20409684591173_1_alg».proof.Proof.KerRun
import proofs.«168903_j20409684591173_1_alg».proof.Proof.RefValue
import proofs.«168903_j20409684591173_1_alg».proof.Proof.PreRead
import proofs.«168903_j20409684591173_1_alg».proof.Proof.Algebra
import Idealize.ShloMosaic.Adequacy
import Idealize.ShloMosaic.Init

noncomputable section

namespace Cert.Proof

open Idealize.ShloMosaic Idealize.SL.Sem

/-- The kernel program runs and keeps its arguments. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments, with every input entry a real number and no row norm zero, the
    kernel program ends with its result at the folded arrangement, the reference with its result at its own
    arrangement, and the two arrangements are one array. -/
theorem algebraic : Cert.algebraic_KernelIdeal_ReferenceIdeal := by
  intro m ρ m' ρ' hpre hagree
  refine ⟨_, Cert.Dora.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  obtain ⟨hx, hW, hA, hB, hM, hn⟩ := Cert.Dora.pre_reads _ _ _ _ _ (hpre c)
  refine (Cert.Dora.ref_value _ _ _ _ _).trans ?_
  funext i
  exact (Cert.Dora.outK_eq_outR _ _ _ _ _ hx hW hA hB hM hn (i 0) (i 1) (i 2)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
